-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S128 .f32) (main_arg6 : FVec F S256x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S5000x128 : Shape := ⟨2, ![5000, 128]⟩
abbrev S690000x128 : Shape := ⟨2, ![690000, 128]⟩
abbrev S1x128 : Shape := ⟨2, ![1, 128]⟩

abbrev nBuf : Space → Nat
  | .hbm => 90
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S50000, .i32⟩
  | .hbm, ⟨9, _⟩ => ⟨S1x640000, .i32⟩
  | .hbm, ⟨10, _⟩ => ⟨S640000, .i32⟩
  | .hbm, ⟨11, _⟩ => ⟨S690000, .i32⟩
  | .hbm, ⟨12, _⟩ => ⟨S1x640000, .i32⟩
  | .hbm, ⟨13, _⟩ => ⟨S640000, .i32⟩
  | .hbm, ⟨14, _⟩ => ⟨S690000, .i32⟩
  | .hbm, ⟨15, _⟩ => ⟨S_, .f32⟩
  | .hbm, ⟨16, _⟩ => ⟨S690000, .f32⟩
  | .hbm, ⟨17, _⟩ => ⟨S_, .f32⟩
  | .hbm, ⟨18, _⟩ => ⟨S50000, .f32⟩
  | .hbm, ⟨19, _⟩ => ⟨S690000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S690000, .i32⟩
  | .hbm, ⟨31, _⟩ => ⟨S690000, .i1⟩
  | .hbm, ⟨32, _⟩ => ⟨S_, .i32⟩
  | .hbm, ⟨33, _⟩ => ⟨S690000, .i32⟩
  | .hbm, ⟨34, _⟩ => ⟨S690000, .i32⟩
  | .hbm, ⟨35, _⟩ => ⟨S690000, .i32⟩
  | .hbm, ⟨36, _⟩ => ⟨S690000x1, .i32⟩
  | .hbm, ⟨37, _⟩ => ⟨S690000, .f32⟩
  | .hbm, ⟨38, _⟩ => ⟨S_, .i32⟩
  | .hbm, ⟨39, _⟩ => ⟨S690000, .i32⟩
  | .hbm, ⟨40, _⟩ => ⟨S690000, .i1⟩
  | .hbm, ⟨41, _⟩ => ⟨S_, .i32⟩
  | .hbm, ⟨42, _⟩ => ⟨S690000, .i32⟩
  | .hbm, ⟨43, _⟩ => ⟨S690000, .i32⟩
  | .hbm, ⟨44, _⟩ => ⟨S690000, .i32⟩
  | .hbm, ⟨45, _⟩ => ⟨S690000x1, .i32⟩
  | .hbm, ⟨46, _⟩ => ⟨S690000, .f32⟩
  | .hbm, ⟨47, _⟩ => ⟨S690000, .f32⟩
  | .hbm, ⟨48, _⟩ => ⟨S50000x128, .f32⟩
  | .hbm, ⟨49, _⟩ => ⟨S_, .i32⟩
  | .hbm, ⟨50, _⟩ => ⟨S690000, .i32⟩
  | .hbm, ⟨51, _⟩ => ⟨S690000, .i1⟩
  | .hbm, ⟨52, _⟩ => ⟨S_, .i32⟩
  | .hbm, ⟨53, _⟩ => ⟨S690000, .i32⟩
  | .hbm, ⟨54, _⟩ => ⟨S690000, .i32⟩
  | .hbm, ⟨55, _⟩ => ⟨S690000, .i32⟩
  | .hbm, ⟨56, _⟩ => ⟨S690000x1, .i32⟩
  | .hbm, ⟨57, _⟩ => ⟨S690000x128, .f32⟩
  | .hbm, ⟨58, _⟩ => ⟨S690000x1, .f32⟩
  | .hbm, ⟨59, _⟩ => ⟨S690000x128, .f32⟩
  | .hbm, ⟨60, _⟩ => ⟨S690000x128, .f32⟩
  | .hbm, ⟨61, _⟩ => ⟨S_, .f32⟩
  | .hbm, ⟨62, _⟩ => ⟨S50000x128, .f32⟩
  | .hbm, ⟨63, _⟩ => ⟨S690000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S690000, .i32⟩
  | .hbm, ⟨70, _⟩ => ⟨S690000, .i1⟩
  | .hbm, ⟨71, _⟩ => ⟨S_, .i32⟩
  | .hbm, ⟨72, _⟩ => ⟨S690000, .i32⟩
  | .hbm, ⟨73, _⟩ => ⟨S690000, .i32⟩
  | .hbm, ⟨74, _⟩ => ⟨S690000, .i32⟩
  | .hbm, ⟨75, _⟩ => ⟨S690000x1, .i32⟩
  | .hbm, ⟨76, _⟩ => ⟨S690000x128, .f32⟩
  | .hbm, ⟨77, _⟩ => ⟨S690000x1, .f32⟩
  | .hbm, ⟨78, _⟩ => ⟨S690000x128, .f32⟩
  | .hbm, ⟨79, _⟩ => ⟨S690000x128, .f32⟩
  | .hbm, ⟨80, _⟩ => ⟨S_, .f32⟩
  | .hbm, ⟨81, _⟩ => ⟨S50000x128, .f32⟩
  | .hbm, ⟨82, _⟩ => ⟨S690000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S128x128, .f32⟩
  | .hbm, ⟨87, _⟩ => ⟨S128x128, .f32⟩
  | .hbm, ⟨88, _⟩ => ⟨S1x128, .f32⟩
  | .hbm, ⟨89, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem5_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x128_S128x128_0_0 : S256x128.Slices ![0, 0] S128x128
  slices_S256x128_S128x128_128_0 : S256x128.Slices ![128, 0] S128x128
  shapeCasts_S128x128_S128x128 : S128x128.ShapeCasts S128x128
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x128_S128x128_S5000x128_1_0_0_1_n_n_wf : DotDims.WF S5000x128 S128x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S50000x256 : Shape := ⟨2, ![50000, 256]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S50000, .i32⟩
  | 9 => ⟨S1x640000, .i32⟩
  | 10 => ⟨S640000, .i32⟩
  | 11 => ⟨S690000, .i32⟩
  | 12 => ⟨S1x640000, .i32⟩
  | 13 => ⟨S640000, .i32⟩
  | 14 => ⟨S690000, .i32⟩
  | 15 => ⟨S_, .f32⟩
  | 16 => ⟨S690000, .f32⟩
  | 17 => ⟨S_, .f32⟩
  | 18 => ⟨S50000, .f32⟩
  | 19 => ⟨S690000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S690000, .i32⟩
  | 31 => ⟨S690000, .i1⟩
  | 32 => ⟨S_, .i32⟩
  | 33 => ⟨S690000, .i32⟩
  | 34 => ⟨S690000, .i32⟩
  | 35 => ⟨S690000, .i32⟩
  | 36 => ⟨S690000x1, .i32⟩
  | 37 => ⟨S690000, .f32⟩
  | 38 => ⟨S_, .i32⟩
  | 39 => ⟨S690000, .i32⟩
  | 40 => ⟨S690000, .i1⟩
  | 41 => ⟨S_, .i32⟩
  | 42 => ⟨S690000, .i32⟩
  | 43 => ⟨S690000, .i32⟩
  | 44 => ⟨S690000, .i32⟩
  | 45 => ⟨S690000x1, .i32⟩
  | 46 => ⟨S690000, .f32⟩
  | 47 => ⟨S690000, .f32⟩
  | 48 => ⟨S50000x128, .f32⟩
  | 49 => ⟨S_, .i32⟩
  | 50 => ⟨S690000, .i32⟩
  | 51 => ⟨S690000, .i1⟩
  | 52 => ⟨S_, .i32⟩
  | 53 => ⟨S690000, .i32⟩
  | 54 => ⟨S690000, .i32⟩
  | 55 => ⟨S690000, .i32⟩
  | 56 => ⟨S690000x1, .i32⟩
  | 57 => ⟨S690000x128, .f32⟩
  | 58 => ⟨S690000x1, .f32⟩
  | 59 => ⟨S690000x128, .f32⟩
  | 60 => ⟨S690000x128, .f32⟩
  | 61 => ⟨S_, .f32⟩
  | 62 => ⟨S50000x128, .f32⟩
  | 63 => ⟨S690000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S1x640000, .i32⟩
  | 73 => ⟨S640000, .i32⟩
  | 74 => ⟨S690000, .i32⟩
  | 75 => ⟨S1x640000, .i32⟩
  | 76 => ⟨S640000, .i32⟩
  | 77 => ⟨S690000, .i32⟩
  | 78 => ⟨S_, .f32⟩
  | 79 => ⟨S690000, .f32⟩
  | 80 => ⟨S_, .f32⟩
  | 81 => ⟨S50000, .f32⟩
  | 82 => ⟨S690000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S690000, .i32⟩
  | 94 => ⟨S690000, .i1⟩
  | 95 => ⟨S_, .i32⟩
  | 96 => ⟨S690000, .i32⟩
  | 97 => ⟨S690000, .i32⟩
  | 98 => ⟨S690000, .i32⟩
  | 99 => ⟨S690000x1, .i32⟩
  | 100 => ⟨S690000, .f32⟩
  | 101 => ⟨S_, .i32⟩
  | 102 => ⟨S690000, .i32⟩
  | 103 => ⟨S690000, .i1⟩
  | 104 => ⟨S_, .i32⟩
  | 105 => ⟨S690000, .i32⟩
  | 106 => ⟨S690000, .i32⟩
  | 107 => ⟨S690000, .i32⟩
  | 108 => ⟨S690000x1, .i32⟩
  | 109 => ⟨S690000, .f32⟩
  | 110 => ⟨S690000, .f32⟩
  | 111 => ⟨S50000x128, .f32⟩
  | 112 => ⟨S_, .i32⟩
  | 113 => ⟨S690000, .i32⟩
  | 114 => ⟨S690000, .i1⟩
  | 115 => ⟨S_, .i32⟩
  | 116 => ⟨S690000, .i32⟩
  | 117 => ⟨S690000, .i32⟩
  | 118 => ⟨S690000, .i32⟩
  | 119 => ⟨S690000x1, .i32⟩
  | 120 => ⟨S690000x128, .f32⟩
  | 121 => ⟨S690000x1, .f32⟩
  | 122 => ⟨S690000x128, .f32⟩
  | 123 => ⟨S690000x128, .f32⟩
  | 124 => ⟨S_, .f32⟩
  | 125 => ⟨S50000x128, .f32⟩
  | 126 => ⟨S690000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x256, .f32⟩
  | 7 => ⟨S50000x128, .f32⟩
  | 8 => ⟨S1x128, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x256_S256x128_S50000x128_1_0_0_1_n_n_wf : DotDims.WF S50000x256 S256x128 S50000x128 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Shared.lean ====
/-
  The graph-convolution block as ONE function of its eight argument arrays, built from named stages.

  With E = 640000 edges and N = 50000 nodes, the edge list is extended by one self-loop per node: the source and
  destination id vectors have length E + N (`srcIds`, `dstIds`). The in-degree `degOf` counts, per node, the entries
  of the destination vector equal to it (a scatter-add of ones); `dinvOf` is its inverse square root where the degree is
  positive and zero elsewhere; the weight of entry j is dinv(src j) · dinv(dst j) (`normOf`, the ids wrapped the NumPy
  way by `wrapCol`). One aggregation `aggOf` gathers the rows h(src j), scales row j by its weight, and scatter-adds it
  into row dst j of a zero array. A layer is  relu (agg (x · W) + b)  (`dense`, `biasRelu`), and the block's output is
  [x1 | x2] · Wlin + blin  (`outOf`) with x1, x2 the two layers' outputs (`gcn`).

  Each stage is spelt with the host operations the reference program prints, over the reference's own shape records, so
  that the reference's composed result is `gcn` of its arguments by unfolding, and every stretch of host operations of
  the kernel's program is one of these stages of the values it reads.
-/
import proofs.«136363_j30777735643935_1_alg».proof.Proof.Gen.ReferenceIdeal

noncomputable section

namespace Cert.Gcn

open Cert.ReferenceIdeal Cert.ReferenceIdeal.Gen Idealize.ShloMosaic

variable {F : FTy → Type} [FloatOps F]

/-- Contents of a float array of shape `s`, and of a 32-bit integer array. -/
abbrev FArr (F : FTy → Type) (s : Shape) : Type := (⟨s, .f32⟩ : BufTy).Contents (Elt F)
abbrev IArr (F : FTy → Type) (s : Shape) : Type := (⟨s, .i32⟩ : BufTy).Contents (Elt F)

/-- Row `r` of the edge list followed by the node numbers 0 … N-1 (the self-loops). -/
def srcIds (e : IArr F S2x640000) : IArr F S690000 :=
  concatenate S690000 0 [⟨S640000, (shapeCast _ (extractStridedSlice S1x640000 ![0, 0] e slices_S2x640000_S1x640000_0_0) shapeCasts_S1x640000_S640000)⟩, ⟨S50000, (iotaInDim S50000 32 0)⟩] concatenates_S640000_S50000_S690000_d0

def dstIds (e : IArr F S2x640000) : IArr F S690000 :=
  concatenate S690000 0 [⟨S640000, (shapeCast _ (extractStridedSlice S1x640000 ![1, 0] e slices_S2x640000_S1x640000_1_0) shapeCasts_S1x640000_S640000)⟩, ⟨S50000, (iotaInDim S50000 32 0)⟩] concatenates_S640000_S50000_S690000_d0

/-- An id vector as a column of gather start indices, a negative id moved up by N first. -/
def wrapCol (v : IArr F S690000) : IArr F S690000x1 :=
  broadcastInDim S690000x1 ![0] bcast_S690000_S690000x1_0 (select (cmpi .slt v (broadcastInDim S690000 ![] bcast_S_S690000 (constantI S_ 32 0#32))) (addi v (broadcastInDim S690000 ![] bcast_S_S690000 (constantI S_ 32 50000#32))) v)

/-- The in-degree of every node, self-loop included: ones scatter-added at the destination ids. -/
def degOf (d : IArr F S690000) : FArr F S50000 :=
  Host.scatterAdd scatter_S50000_S690000x1_S690000_n_0_0_1 (broadcastInDim S50000 ![] bcast_S_S50000 (constant S_ .f32 0x00000000#32)) (broadcastInDim S690000x1 ![0] bcast_S690000_S690000x1_0 d) (broadcastInDim S690000 ![] bcast_S_S690000 (constant S_ .f32 0x3F800000#32))

/-- deg^(-1/2) where deg > 0, else 0. -/
def dinvOf (d : IArr F S690000) : FArr F S50000 :=
  select (cmpf .ogt (degOf d) (broadcastInDim S50000 ![] bcast_S_S50000 (constant S_ .f32 0x00000000#32))) (Host.rsqrt (degOf d)) (broadcastInDim S50000 ![] bcast_S_S50000 (id (constant S_ .f32 0x00000000#32)))

/-- The weight of entry j: dinv(src j) · dinv(dst j). -/
def normOf (s d : IArr F S690000) : FArr F S690000 :=
  mulf (Host.gather gather_S50000_S690000x1_S690000_n_0_n_n_0_1_1 (dinvOf d) (wrapCol s)) (Host.gather gather_S50000_S690000x1_S690000_n_0_n_n_0_1_1 (dinvOf d) (wrapCol d))

/-- One aggregation: rows h(src j) scaled by the weight of j, scatter-added into row dst j of zeros. -/
def aggOf (s d : IArr F S690000) (nrm : FArr F S690000) (h : FArr F S50000x128) : FArr F S50000x128 :=
  Host.scatterAdd scatter_S50000x128_S690000x1_S690000x128_1_0_0_1 (broadcastInDim S50000x128 ![] bcast_S_S50000x128 (constant S_ .f32 0x00000000#32)) (broadcastInDim S690000x1 ![0] bcast_S690000_S690000x1_0 d) (mulf (Host.gather gather_S50000x128_S690000x1_S690000x128_1_0_n_n_0_1_1128 h (wrapCol s)) (broadcastInDim S690000x128 ![0, 1] bcast_S690000x1_S690000x128_0_1 (broadcastInDim S690000x1 ![0] bcast_S690000_S690000x1_0 nrm)))

/-- x · W for an [N, 128] array and a [128, 128] matrix. -/
def dense (x : FArr F S50000x128) (W : FArr F S128x128) : FArr F S50000x128 :=
  Host.dotGeneral dot_S50000x128_S128x128_S50000x128_1_0_0_1_n_n none x W

/-- max (a + b, 0), the row b added to every row of a. -/
def biasRelu (a : FArr F S50000x128) (b : FArr F S128) : FArr F S50000x128 :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- [x1 | x2] · Wlin + blin. -/
def outOf (x1 x2 : FArr F S50000x128) (Wlin : FArr F S256x128) (blin : FArr F S128) : FArr F S50000x128 :=
  addf (Host.dotGeneral dot_S50000x256_S256x128_S50000x128_1_0_0_1_n_n none (concatenate S50000x256 1 [⟨S50000x128, x1⟩, ⟨S50000x128, x2⟩] concatenates_S50000x128_S50000x128_S50000x256_d1) Wlin) (broadcastInDim S50000x128 ![0, 1] bcast_S1x128_S50000x128_0_1 (broadcastInDim S1x128 ![1] bcast_S128_S1x128_1 blin))

/-- One layer: relu (agg (x · W) + b). -/
def layer (s d : IArr F S690000) (nrm : FArr F S690000) (x : FArr F S50000x128) (W : FArr F S128x128) (b : FArr F S128) :
    FArr F S50000x128 :=
  biasRelu (aggOf s d nrm (dense x W)) b

/-- The whole block. -/
def gcn (x : FArr F S50000x128) (e : IArr F S2x640000) (W1 : FArr F S128x128) (b1 : FArr F S128) (W2 : FArr F S128x128)
    (b2 : FArr F S128) (Wlin : FArr F S256x128) (blin : FArr F S128) : FArr F S50000x128 :=
  outOf (layer (srcIds e) (dstIds e) (normOf (srcIds e) (dstIds e)) x W1 b1)
    (layer (srcIds e) (dstIds e) (normOf (srcIds e) (dstIds e))
      (layer (srcIds e) (dstIds e) (normOf (srcIds e) (dstIds e)) x W1 b1) W2 b2) Wlin blin

end Cert.Gcn

end
-- ==== Proof.Bounds.lean ====
/-
  The kernel program's result buffer, after its run, holds the block `gcn` of the eight argument arrays.

  The program alternates stretches of host operations with five kernel regions. Walking the buffer contents from the
  launch to the return: the first stretches compute the id vectors and the weights (stages `srcIds`, `dstIds`,
  `normOf` of the edge list); region 0 leaves x · W1; the next stretch aggregates it (`aggOf`) and lays b1 out as a
  [1, 128] row; region 1 leaves x1 = max (agg + b1, 0); region 2 leaves x1 · W2; a stretch aggregates it; region 3
  leaves x2; the last stretch cuts Wlin into its halves and lays blin out; region 4 leaves [x1 | x2] · Wlin + blin.
  Every host stretch is read as a stage of the values it finds (whatever they are), every region by its value lemma,
  and a buffer nothing in between writes keeps what it held.
-/
import proofs.«136363_j30777735643935_1_alg».proof.Proof.Gen.KernelIdeal.Frame
import proofs.«136363_j30777735643935_1_alg».proof.Proof.Shared

set_option maxRecDepth 16384

noncomputable section

namespace Cert.Gcn.Bounds

open Cert.KernelIdeal Cert.KernelIdeal.Gen Idealize.ShloMosaic Idealize.ShloMosaic.TcCoe Idealize.ShloMosaic.StableHlo
open Idealize.SL.Sem

/-! ## The host stretches, each from ANY contents `Wv` -/

section Stretches

variable {F : FTy → Type} [FloatOps F] (Wv : Valuation τ sig (Elt F))

/-- The stretches before region 0 as one fold. -/
abbrev pre (Wv : Valuation τ sig (Elt F)) : Valuation τ sig (Elt F) :=
  StableHlo.after hostOps0_2 (StableHlo.after hostOps0_1 (StableHlo.after hostOps0 Wv))

set_option maxHeartbeats 2000000 in
theorem pre_v3 : pre Wv (Proc.devRef .tc main_v3) = Cert.Gcn.srcIds (F := F) (Wv (Proc.devRef .tc main_arg1)) := by
  after_results
  unfold Cert.Gcn.srcIds
  rfl

set_option maxHeartbeats 2000000 in
theorem pre_v6 : pre Wv (Proc.devRef .tc main_v6) = Cert.Gcn.dstIds (F := F) (Wv (Proc.devRef .tc main_arg1)) := by
  after_results
  unfold Cert.Gcn.dstIds
  rfl

set_option maxHeartbeats 4000000 in
theorem pre_v29 : pre Wv (Proc.devRef .tc main_v29)
    = Cert.Gcn.normOf (F := F) (Cert.Gcn.srcIds (Wv (Proc.devRef .tc main_arg1))) (Cert.Gcn.dstIds (Wv (Proc.devRef .tc main_arg1))) := by
  after_results_simp
  unfold Cert.Gcn.normOf Cert.Gcn.dinvOf Cert.Gcn.degOf Cert.Gcn.wrapCol Cert.Gcn.srcIds Cert.Gcn.dstIds
  rfl

set_option maxHeartbeats 2000000 in
/-- The stretches before region 0 write none of the arguments. -/
theorem pre_arg0 : pre Wv (Proc.devRef .tc main_arg0) = Wv (Proc.devRef .tc main_arg0) := by after_results
set_option maxHeartbeats 2000000 in
theorem pre_arg2 : pre Wv (Proc.devRef .tc main_arg2) = Wv (Proc.devRef .tc main_arg2) := by after_results
set_option maxHeartbeats 2000000 in
theorem pre_arg3 : pre Wv (Proc.devRef .tc main_arg3) = Wv (Proc.devRef .tc main_arg3) := by after_results
set_option maxHeartbeats 2000000 in
theorem pre_arg4 : pre Wv (Proc.devRef .tc main_arg4) = Wv (Proc.devRef .tc main_arg4) := by after_results
set_option maxHeartbeats 2000000 in
theorem pre_arg5 : pre Wv (Proc.devRef .tc main_arg5) = Wv (Proc.devRef .tc main_arg5) := by after_results
set_option maxHeartbeats 2000000 in
theorem pre_arg6 : pre Wv (Proc.devRef .tc main_arg6) = Wv (Proc.devRef .tc main_arg6) := by after_results
set_option maxHeartbeats 2000000 in
theorem pre_arg7 : pre Wv (Proc.devRef .tc main_arg7) = Wv (Proc.devRef .tc main_arg7) := by after_results

set_option maxHeartbeats 2000000 in
/-- The stretch after region 0: the aggregation of the product, and b1 as a row. -/
theorem s1_v43 : StableHlo.after hostOps1 Wv (Proc.devRef .tc main_v43)
    = Cert.Gcn.aggOf (F := F) (Wv (Proc.devRef .tc main_v3)) (Wv (Proc.devRef .tc main_v6)) (Wv (Proc.devRef .tc main_v29))
        (Wv (Proc.devRef .tc main_v30)) := by
  after_results
  unfold Cert.Gcn.aggOf Cert.Gcn.wrapCol
  rfl
set_option maxHeartbeats 2000000 in
theorem s1_v44 : StableHlo.after hostOps1 Wv (Proc.devRef .tc main_v44)
    = shapeCast S1x128 (Wv (Proc.devRef .tc main_arg3)) shapeCasts_S128_S1x128 := by
  after_results
  all_goals rfl
set_option maxHeartbeats 2000000 in
theorem s1_keep (b : Ref sig .tc) (hb : b ∈ [main_v3, main_v6, main_v29, main_arg4, main_arg5, main_arg6, main_arg7]) :
    StableHlo.after hostOps1 Wv (Proc.devRef .tc b) = Wv (Proc.devRef .tc b) := by
  simp only [List.mem_cons, List.not_mem_nil, or_false] at hb
  rcases hb with rfl | rfl | rfl | rfl | rfl | rfl | rfl <;> after_results

set_option maxHeartbeats 2000000 in
/-- The stretch after region 2: the aggregation of the second product, and b2 as a row. -/
theorem s3_v59 : StableHlo.after hostOps3 Wv (Proc.devRef .tc main_v59)
    = Cert.Gcn.aggOf (F := F) (Wv (Proc.devRef .tc main_v3)) (Wv (Proc.devRef .tc main_v6)) (Wv (Proc.devRef .tc main_v29))
        (Wv (Proc.devRef .tc main_v46)) := by
  after_results
  unfold Cert.Gcn.aggOf Cert.Gcn.wrapCol
  rfl
set_option maxHeartbeats 2000000 in
theorem s3_v60 : StableHlo.after hostOps3 Wv (Proc.devRef .tc main_v60)
    = shapeCast S1x128 (Wv (Proc.devRef .tc main_arg5)) shapeCasts_S128_S1x128 := by
  after_results
  all_goals rfl
set_option maxHeartbeats 2000000 in
theorem s3_keep (b : Ref sig .tc) (hb : b ∈ [main_v45, main_arg6, main_arg7]) :
    StableHlo.after hostOps3 Wv (Proc.devRef .tc b) = Wv (Proc.devRef .tc b) := by
  simp only [List.mem_cons, List.not_mem_nil, or_false] at hb
  rcases hb with rfl | rfl | rfl <;> after_results

/-- The last stretch: the two halves of Wlin, and blin as a row. -/
theorem s4_v62 : StableHlo.after hostOps4 Wv (Proc.devRef .tc main_v62)
    = extractStridedSlice S128x128 ![0, 0] (Wv (Proc.devRef .tc main_arg6)) slices_S256x128_S128x128_0_0 := by
  after_results
  all_goals rfl
theorem s4_v63 : StableHlo.after hostOps4 Wv (Proc.devRef .tc main_v63)
    = extractStridedSlice S128x128 ![128, 0] (Wv (Proc.devRef .tc main_arg6)) slices_S256x128_S128x128_128_0 := by
  after_results
  all_goals rfl
theorem s4_v64 : StableHlo.after hostOps4 Wv (Proc.devRef .tc main_v64)
    = shapeCast S1x128 (Wv (Proc.devRef .tc main_arg7)) shapeCasts_S128_S1x128 := by
  after_results
  all_goals rfl
theorem s4_keep (b : Ref sig .tc) (hb : b ∈ [main_v45, main_v61]) :
    StableHlo.after hostOps4 Wv (Proc.devRef .tc b) = Wv (Proc.devRef .tc b) := by
  simp only [List.mem_cons, List.not_mem_nil, or_false] at hb
  rcases hb with rfl | rfl <;> after_results

end Stretches

end Cert.Gcn.Bounds

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.TileMath.lean ====
/-
  The five kernel bodies on one tile of 5000 rows, read at an entry over the extended reals.

  Narrowing to bf16 is the identity on the extended reals and a shape cast to the same shape changes nothing, so:
  the product bodies compute, at (p, q), the sum over k of x(p, k) · w(k, q); the bias bodies compute
  max (a(p, q) + b(0, q), 0) with b a [1, 128] row; the last body computes
  (Σ_k x1(p, k) · w1(k, q) + Σ_k x2(p, k) · w2(k, q)) + b(0, q).
-/
import proofs.«136363_j30777735643935_1_alg».proof.Proof.Gen.KernelIdeal.Skeleton
import proofs.«136363_j30777735643935_1_alg».proof.Proof.LibDense
import proofs.«136363_j30777735643935_1_alg».proof.Proof.LibBiasRow

noncomputable section

open scoped BigOperators

namespace Cert.Gcn.Tile

open Cert.KernelIdeal Cert.KernelIdeal.Gen Idealize.ShloMosaic Idealize.ShloMosaic.ValueIdx

/-- The first product body at (p, q). -/
theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  -- narrowing to bf16 is the identity on the extended reals; the product into zeros is the sum over k
  unfold k0_pay1
  exact Cert.Dense.matmul_zero_plain_apply dot_S5000x128_S128x128_S5000x128_1_0_0_1_n_n rfl rfl rfl rfl rfl rfl none _ _ p q

/-- The second product body at (p, q). -/
theorem pay2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  -- a shape cast to the same shape changes nothing; then as the first product body
  unfold k2_pay1
  rw [shapeCast_self]
  exact Cert.Dense.matmul_zero_plain_apply dot_S5000x128_S128x128_S5000x128_1_0_0_1_n_n rfl rfl rfl rfl rfl rfl none _ _ p q

/-- The first bias-and-rectifier body at (p, q). -/
theorem pay1_apply (a : Vec Ideal S5000x128 .f32) (b : Vec Ideal S1x128 .f32) (p : Fin 5000) (q : Fin 128) :
    k1_pay1 (F := Ideal) a b (ix2 p q) = max (a (ix2 p q) + b (ix2 (0 : Fin 1) q)) 0 := by
  -- the maximum with the zero splat, of the sum of a(p, q) and the row b stretched over the rows
  unfold k1_pay1
  rw [shapeCast_self, shapeCast_self]
  refine (Cert.Dense.kernel_relu_apply _ (ix2 p q)).trans ?_
  rw [addf_apply]
  exact congrArg (fun t => max (a (ix2 p q) + t) 0) (Cert.BiasRow.stretch_row_apply broadcasts_S1x128_S5000x128 b p q)

/-- The second bias-and-rectifier body at (p, q). -/
theorem pay3_apply (a : Vec Ideal S5000x128 .f32) (b : Vec Ideal S1x128 .f32) (p : Fin 5000) (q : Fin 128) :
    k3_pay1 (F := Ideal) a b (ix2 p q) = max (a (ix2 p q) + b (ix2 (0 : Fin 1) q)) 0 := by
  -- the maximum with the zero splat, of the sum of a(p, q) and the row b stretched over the rows
  unfold k3_pay1
  rw [shapeCast_self, shapeCast_self]
  refine (Cert.Dense.kernel_relu_apply _ (ix2 p q)).trans ?_
  rw [addf_apply]
  exact congrArg (fun t => max (a (ix2 p q) + t) 0) (Cert.BiasRow.stretch_row_apply broadcasts_S1x128_S5000x128 b p q)

/-- The last body at (p, q): two products summed, plus the bias row. -/
theorem pay4_apply (x1 x2 : Vec Ideal S5000x128 .f32) (w1 w2 : Vec Ideal S128x128 .f32) (b : Vec Ideal S1x128 .f32)
    (p : Fin 5000) (q : Fin 128) :
    k4_pay1 (F := Ideal) x1 x2 w1 w2 b (ix2 p q)
      = (∑ k : Fin 128, x1 (ix2 p k) * w1 (ix2 k q) + ∑ k : Fin 128, x2 (ix2 p k) * w2 (ix2 k q)) + b (ix2 (0 : Fin 1) q) := by
  -- shape casts to the same shape change nothing; each product into zeros is its sum over k; the row b is stretched
  unfold k4_pay1
  rw [shapeCast_self, shapeCast_self, shapeCast_self, shapeCast_self, shapeCast_self]
  rw [addf_apply, addf_apply]
  rw [Cert.BiasRow.stretch_row_apply broadcasts_S1x128_S5000x128 b p q]
  have e1 := Cert.Dense.matmul_zero_plain_apply dot_S5000x128_S128x128_S5000x128_1_0_0_1_n_n rfl rfl rfl rfl rfl rfl none
    (truncf .bf16 x1 bitsLt_bf16_f32) (truncf .bf16 w1 bitsLt_bf16_f32) p q
  have e2 := Cert.Dense.matmul_zero_plain_apply dot_S5000x128_S128x128_S5000x128_1_0_0_1_n_n rfl rfl rfl rfl rfl rfl none
    (truncf .bf16 x2 bitsLt_bf16_f32) (truncf .bf16 w2 bitsLt_bf16_f32) p q
  exact congrArg₂ (fun s t => (s + t) + b (ix2 (0 : Fin 1) q)) e1 e2

end Cert.Gcn.Tile

end
-- ==== Proof.SpecApply.lean ====
/-
  The dense stages of the block read at an entry over the extended reals.

  `dense x W` at (r, c) is the sum over k of x(r, k) · W(k, c); `biasRelu a b` at (r, c) is max (a(r, c) + b(c), 0);
  `outOf x1 x2 Wlin blin` at (r, c) is (Σ_k x1(r, k) · Wlin(k, c) + Σ_k x2(r, k) · Wlin(128 + k, c)) + blin(c): the product of
  the joined array [x1 | x2] with Wlin is a sum over 256 columns, which splits at column 128 into the two arrays' own
  sums — a re-grouping of one finite sum, which holds on the extended reals as in any commutative monoid.
-/
import proofs.«136363_j30777735643935_1_alg».proof.Proof.Shared
import proofs.«136363_j30777735643935_1_alg».proof.Proof.LibDense
import proofs.«136363_j30777735643935_1_alg».proof.Proof.LibBiasRow

noncomputable section

open scoped BigOperators

namespace Cert.Gcn

open Cert.ReferenceIdeal Cert.ReferenceIdeal.Gen Idealize.ShloMosaic Idealize.ShloMosaic.ValueIdx

/-- Row k of the upper half of a [256, 128] matrix, and row k of its lower half. -/
def lo (k : Fin 128) : Fin 256 := ⟨k.val, by have := k.isLt; omega⟩
def hi (k : Fin 128) : Fin 256 := ⟨128 + k.val, by have := k.isLt; omega⟩

/-- A sum over 256 columns is the sum over the upper 128 plus the sum over the lower 128. -/
private theorem sum_split (f : Fin 256 → EReal) :
    ∑ k : Fin 256, f k = ∑ k : Fin 128, f (lo k) + ∑ k : Fin 128, f (hi k) :=
  Fin.sum_univ_add (M := EReal) (a := 128) (b := 128) f

/-- The joined array [x1 | x2] at a column of the upper half reads x1 at that column. -/
private theorem cat_lo (x1 x2 : FArr Ideal S50000x128) (r : Fin 50000) (k : Fin 128) :
    concatenate S50000x256 1 [⟨S50000x128, x1⟩, ⟨S50000x128, x2⟩] concatenates_S50000x128_S50000x128_S50000x256_d1
        (ix2 r (lo k)) = x1 (ix2 r k) :=
  concatenate_pair_apply_left (1 : Fin S50000x256.rank) x1 x2 concatenates_S50000x128_S50000x128_S50000x256_d1
    (ix2 r (lo k)) rfl (ix2 r k) fun b =>
      match b with
      | ⟨0, _⟩ => rfl
      | ⟨1, _⟩ => rfl

/-- The joined array [x1 | x2] at a column of the lower half reads x2 at that column less 128. -/
private theorem cat_hi (x1 x2 : FArr Ideal S50000x128) (r : Fin 50000) (k : Fin 128) :
    concatenate S50000x256 1 [⟨S50000x128, x1⟩, ⟨S50000x128, x2⟩] concatenates_S50000x128_S50000x128_S50000x256_d1
        (ix2 r (hi k)) = x2 (ix2 r k) :=
  concatenate_pair_apply_right (1 : Fin S50000x256.rank) x1 x2 concatenates_S50000x128_S50000x128_S50000x256_d1
    (ix2 r (hi k)) rfl rfl (ix2 r k)
    (fun b hb =>
      match b, hb with
      | ⟨0, _⟩, _ => rfl
      | ⟨1, _⟩, hb => absurd rfl hb)
    (Nat.add_comm k.val 128)

theorem dense_apply (x : FArr Ideal S50000x128) (W : FArr Ideal S128x128) (r : Fin 50000) (c : Fin 128) :
    dense (F := Ideal) x W (ix2 r c) = ∑ k : Fin 128, x (ix2 r k) * W (ix2 k c) := by
  -- the general product contracts x's axis 1 with W's axis 0: the sum over k
  unfold dense
  exact Cert.Dense.dotGeneral_plain_apply dot_S50000x128_S128x128_S50000x128_1_0_0_1_n_n rfl rfl rfl rfl rfl rfl none x W r c

theorem biasRelu_apply (a : FArr Ideal S50000x128) (b : FArr Ideal S128) (r : Fin 50000) (c : Fin 128) :
    biasRelu (F := Ideal) a b (ix2 r c) = max (a (ix2 r c) + b (ix1 c)) 0 := by
  -- the maximum with the zero scalar laid out over the array, of a(r, c) plus the row b laid out over the rows
  unfold biasRelu
  refine (Cert.Dense.host_relu_apply bcast_S_S50000x128 _ (ix2 r c)).trans ?_
  rw [addf_apply]
  exact congrArg (fun t => max (a (ix2 r c) + t) 0)
    (Cert.BiasRow.layout_layout_apply bcast_S128_S1x128_1 bcast_S1x128_S50000x128_0_1 b r c)

theorem outOf_apply (x1 x2 : FArr Ideal S50000x128) (Wlin : FArr Ideal S256x128) (blin : FArr Ideal S128)
    (r : Fin 50000) (c : Fin 128) :
    outOf (F := Ideal) x1 x2 Wlin blin (ix2 r c)
      = (∑ k : Fin 128, x1 (ix2 r k) * Wlin (ix2 (lo k) c) + ∑ k : Fin 128, x2 (ix2 r k) * Wlin (ix2 (hi k) c))
        + blin (ix1 c) := by
  unfold outOf
  rw [addf_apply]
  -- the bias row laid out over the rows reads blin(c)
  rw [Cert.BiasRow.layout_layout_apply bcast_S128_S1x128_1 bcast_S1x128_S50000x128_0_1 blin r c]
  -- the product of the joined array with Wlin is a sum over 256 columns
  rw [Cert.Dense.dotGeneral_plain_apply dot_S50000x256_S256x128_S50000x128_1_0_0_1_n_n rfl rfl rfl rfl rfl rfl none _ Wlin r c]
  -- which splits at column 128; the upper half reads x1 and the lower half reads x2
  rw [sum_split]
  refine congrArg₂ (fun s t => s + t + blin (ix1 c)) (Finset.sum_congr rfl fun k _ => ?_)
    (Finset.sum_congr rfl fun k _ => ?_)
  · exact congrArg (fun t => t * Wlin (ix2 (lo k) c)) (cat_lo x1 x2 r k)
  · exact congrArg (fun t => t * Wlin (ix2 (hi k) c)) (cat_hi x1 x2 r k)

end Cert.Gcn

end
-- ==== Proof.Regions.lean ====
/-
  Each kernel region's output array as one stage of the block, of the arrays the region finds at its entry.

  Every region walks ten tiles of 5000 rows. At tile t a row-tiled window reads rows 5000·t … 5000·t + 4999 of its
  array and a whole-array window reads its whole array, so entry (p, q) of the output tile is the stage's entry
  (5000·t + p, q) — the tile bodies and the stages are the same sums and the same maximum (TileMath, SpecApply). The ten
  tiles cover the 50000 rows, so after the region the output array IS the stage.
-/
import proofs.«136363_j30777735643935_1_alg».proof.Proof.Gen.KernelIdeal.Frame
import proofs.«136363_j30777735643935_1_alg».proof.Proof.TileMath
import proofs.«136363_j30777735643935_1_alg».proof.Proof.SpecApply
import Idealize.ShloMosaic.Lib.Pipeline.Value

set_option maxRecDepth 16384

noncomputable section

open scoped BigOperators

namespace Cert.Gcn.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A row of tile T is a row of the array: 5000·T + p < 50000 for T < 10, p < 5000. -/
def rowOf (T : ℕ) (hT : T < 10) (p : Fin 5000) : Fin 50000 := ⟨5000 * T + p.val, by have := p.isLt; omega⟩

/-- A product tile whose left block is rows 5000·T … of X and whose right block is W, is that tile of X · W. -/
theorem tile_dense (pay : Vec Ideal S5000x128 .f32 → Vec Ideal S128x128 .f32 → FVec Ideal S5000x128 .f32)
    (hpay : ∀ x w (p : Fin 5000) (q : Fin 128), pay x w (ix2 p q) = ∑ k : Fin 128, x (ix2 p k) * w (ix2 k q))
    (X : FArr Ideal Cert.ReferenceIdeal.S50000x128) (W : FArr Ideal Cert.ReferenceIdeal.S128x128)
    (xb : Vec Ideal S5000x128 .f32) (wb : Vec Ideal S128x128 .f32) (T : ℕ) (hT : T < 10)
    (hx : ∀ (p : Fin 5000) (k : Fin 128), xb (ix2 p k) = X (ix2 (rowOf T hT p) k))
    (hw : ∀ (k q : Fin 128), wb (ix2 k q) = W (ix2 k q)) (p : Fin 5000) (q : Fin 128) :
    pay xb wb (ix2 p q) = Cert.Gcn.dense (F := Ideal) X W (ix2 (rowOf T hT p) q) := by
  rw [hpay, Cert.Gcn.dense_apply]
  exact Finset.sum_congr rfl fun k _ => by rw [hx, hw]

/-- A bias tile whose block is rows 5000·T … of A and whose [1, 128] block is the row b, is that tile of max (A + b, 0). -/
theorem tile_biasRelu (pay : Vec Ideal S5000x128 .f32 → Vec Ideal S1x128 .f32 → FVec Ideal S5000x128 .f32)
    (hpay : ∀ a b (p : Fin 5000) (q : Fin 128), pay a b (ix2 p q) = max (a (ix2 p q) + b (ix2 (0 : Fin 1) q)) 0)
    (A : FArr Ideal Cert.ReferenceIdeal.S50000x128) (bvec : FArr Ideal Cert.ReferenceIdeal.S128)
    (ab : Vec Ideal S5000x128 .f32) (bb : Vec Ideal S1x128 .f32) (T : ℕ) (hT : T < 10)
    (ha : ∀ (p : Fin 5000) (q : Fin 128), ab (ix2 p q) = A (ix2 (rowOf T hT p) q))
    (hb : ∀ q : Fin 128, bb (ix2 (0 : Fin 1) q) = bvec (ix1 q)) (p : Fin 5000) (q : Fin 128) :
    pay ab bb (ix2 p q) = Cert.Gcn.biasRelu (F := Ideal) A bvec (ix2 (rowOf T hT p) q) := by
  rw [hpay, Cert.Gcn.biasRelu_apply, ha, hb]

/-- The last tile, its blocks rows 5000·T … of X1 and X2, the two halves of Wlin and the row blin, is that tile of
    [X1 | X2] · Wlin + blin. -/
theorem tile_out (X1 X2 : FArr Ideal Cert.ReferenceIdeal.S50000x128) (Wlin : FArr Ideal Cert.ReferenceIdeal.S256x128)
    (blin : FArr Ideal Cert.ReferenceIdeal.S128)
    (x1b x2b : Vec Ideal S5000x128 .f32) (w1b w2b : Vec Ideal S128x128 .f32) (bb : Vec Ideal S1x128 .f32) (T : ℕ) (hT : T < 10)
    (hx1 : ∀ (p : Fin 5000) (k : Fin 128), x1b (ix2 p k) = X1 (ix2 (rowOf T hT p) k))
    (hx2 : ∀ (p : Fin 5000) (k : Fin 128), x2b (ix2 p k) = X2 (ix2 (rowOf T hT p) k))
    (hw1 : ∀ (k q : Fin 128), w1b (ix2 k q) = Wlin (ix2 (Cert.Gcn.lo k) q))
    (hw2 : ∀ (k q : Fin 128), w2b (ix2 k q) = Wlin (ix2 (Cert.Gcn.hi k) q))
    (hb : ∀ q : Fin 128, bb (ix2 (0 : Fin 1) q) = blin (ix1 q)) (p : Fin 5000) (q : Fin 128) :
    k4_pay1 (F := Ideal) x1b x2b w1b w2b bb (ix2 p q)
      = Cert.Gcn.outOf (F := Ideal) X1 X2 Wlin blin (ix2 (rowOf T hT p) q) := by
  rw [Tile.pay4_apply, Cert.Gcn.outOf_apply, hb]
  congr 2
  · exact Finset.sum_congr rfl fun k _ => by rw [hx1, hw1]
  · exact Finset.sum_congr rfl fun k _ => by rw [hx2, hw2]

/-! ## Region 0: x · W1 -/

/-- The index maps over the grid: the row-tiled windows sit at tile t, the weight window at the origin. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem lt0 (t : Fin cfg0.N) : t.val < 10 := by have h := t.isLt; have e : cfg0.N = 10 := N_0; omega

/-- Where an entry of tile t of each window sits in its array. -/
theorem emb0_0 (t : Fin cfg0.N) (p : Fin 5000) (k : Fin 128) :
    ((cfg0.win 0).blk t).view.emb (ix2 p k) = ix2 (rowOf t.val (lt0 t) p) k := by
  obtain ⟨e0, e1, -, -, -, -⟩ := idx0 t
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega
theorem emb0_1 (t : Fin cfg0.N) (k : Fin 128) (q : Fin 128) :
    ((cfg0.win 1).blk t).view.emb (ix2 k q) = ix2 k q := by
  obtain ⟨-, -, e0, e1, -, -⟩ := idx0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega
theorem emb0_2 (t : Fin cfg0.N) (p : Fin 5000) (k : Fin 128) :
    ((cfg0.win 2).blk t).view.emb (ix2 p k) = ix2 (rowOf t.val (lt0 t) p) k := by
  obtain ⟨-, -, -, -, e0, e1⟩ := idx0 t
  funext a; apply Fin.ext
  match a with
  | ⟨0, _⟩ => show win0_2.index t (0 : Fin 2) * 5000 + 1 * p.val = 5000 * t.val + p.val; omega
  | ⟨1, _⟩ => show win0_2.index t (1 : Fin 2) * 128 + 1 * k.val = k.val; omega

/-- What tile t writes back is tile t of the product of the two arrays the region finds. -/
theorem flushed0 (c : Dev nD) (t : Fin cfg0.N) :
    (dat0 V c).flushed 2 t = ((cfg0.win 2).blk t).view.read (Elt Ideal)
      (Cert.Gcn.dense (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Gcn.dense (F := Ideal) (V c (Pipeline.arrRef spec0 0)) (V c (Pipeline.arrRef spec0 1)) (((cfg0.win 2).blk t).view.emb (ix2 p q))
  rw [emb0_2]
  refine tile_dense k0_pay1 Tile.pay0_apply _ _ _ _ t.val (lt0 t) (fun p k => ?_) (fun k q => ?_) p q
  · show V c (Pipeline.arrRef spec0 0) (((cfg0.win 0).blk t).view.emb (ix2 p k)) = _
    rw [emb0_0]
  · show V c (Pipeline.arrRef spec0 1) (((cfg0.win 1).blk t).view.emb (ix2 k q)) = _
    rw [emb0_1]

/-- An index is in tile t's block of the output iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r lies in tile r / 5000: the ten tiles cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e0, e1⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array is the product of the two arrays it found. -/
theorem region0_value (c : Dev nD) :
    (dat0 V c).arrAt 2 cfg0.N
      = Cert.Gcn.dense (F := Ideal) (V c (Pipeline.arrRef spec0 0)) (V c (Pipeline.arrRef spec0 1)) :=
  (dat0 V c).arrAt_eq_of_cover 2 _ (fun t _ => flushed0 V c t) cover0

/-! ## Region 1: max (agg1 + b1, 0) -/

/-- The index maps over the grid: the row-tiled windows sit at tile t, the bias window at the origin. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

theorem lt1 (t : Fin cfg1.N) : t.val < 10 := by have h := t.isLt; have e : cfg1.N = 10 := N_1; omega

/-- Where an entry of tile t of each window sits in its array. -/
theorem emb1_0 (t : Fin cfg1.N) (p : Fin 5000) (k : Fin 128) :
    ((cfg1.win 0).blk t).view.emb (ix2 p k) = ix2 (rowOf t.val (lt1 t) p) k := by
  obtain ⟨e0, e1, -, -, -, -⟩ := idx1 t
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega
theorem emb1_1 (t : Fin cfg1.N) (k : Fin 1) (q : Fin 128) :
    ((cfg1.win 1).blk t).view.emb (ix2 k q) = ix2 k q := by
  obtain ⟨-, -, e0, e1, -, -⟩ := idx1 t
  funext a; apply Fin.ext
  match a with
  | ⟨0, _⟩ => show win1_1.index t (0 : Fin 2) * 1 + 1 * k.val = k.val; omega
  | ⟨1, _⟩ => show win1_1.index t (1 : Fin 2) * 128 + 1 * q.val = q.val; omega
theorem emb1_2 (t : Fin cfg1.N) (p : Fin 5000) (k : Fin 128) :
    ((cfg1.win 2).blk t).view.emb (ix2 p k) = ix2 (rowOf t.val (lt1 t) p) k := by
  obtain ⟨-, -, -, -, e0, e1⟩ := idx1 t
  funext a; apply Fin.ext
  match a with
  | ⟨0, _⟩ => show win1_2.index t (0 : Fin 2) * 5000 + 1 * p.val = 5000 * t.val + p.val; omega
  | ⟨1, _⟩ => show win1_2.index t (1 : Fin 2) * 128 + 1 * k.val = k.val; omega

/-- What tile t writes back is tile t of max (a + b, 0), when the [1, 128] array the region finds is the row b. -/
theorem flushed1 (c : Dev nD) (b : FArr Ideal Cert.ReferenceIdeal.S128) (hsc : Cert.ReferenceIdeal.S128.ShapeCasts S1x128)
    (hb : V c (Pipeline.arrRef spec1 1) = shapeCast S1x128 b hsc) (t : Fin cfg1.N) :
    (dat1 V c).flushed 2 t = ((cfg1.win 2).blk t).view.read (Elt Ideal)
      (Cert.Gcn.biasRelu (F := Ideal) (V c (Pipeline.arrRef spec1 0)) b) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = Cert.Gcn.biasRelu (F := Ideal) (V c (Pipeline.arrRef spec1 0)) b (((cfg1.win 2).blk t).view.emb (ix2 p q))
  rw [emb1_2]
  refine tile_biasRelu k1_pay1 Tile.pay1_apply _ _ _ _ t.val (lt1 t) (fun p q => ?_) (fun q => ?_) p q
  · show V c (Pipeline.arrRef spec1 0) (((cfg1.win 0).blk t).view.emb (ix2 p q)) = _
    rw [emb1_0]
  · show V c (Pipeline.arrRef spec1 1) (((cfg1.win 1).blk t).view.emb (ix2 (0 : Fin 1) q)) = _
    rw [emb1_1, hb]
    exact Cert.BiasRow.cast_row_apply hsc b q

/-- An index is in tile t's block of the output iff each coordinate is in the block's range. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r lies in tile r / 5000: the ten tiles cover the array. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, e0, e1⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its output array is max (a + b, 0) of the array a it found and the row b. -/
theorem region1_value (c : Dev nD) (b : FArr Ideal Cert.ReferenceIdeal.S128) (hsc : Cert.ReferenceIdeal.S128.ShapeCasts S1x128)
    (hb : V c (Pipeline.arrRef spec1 1) = shapeCast S1x128 b hsc) :
    (dat1 V c).arrAt 2 cfg1.N = Cert.Gcn.biasRelu (F := Ideal) (V c (Pipeline.arrRef spec1 0)) b :=
  (dat1 V c).arrAt_eq_of_cover 2 _ (fun t _ => flushed1 V c b hsc hb t) cover1

/-! ## Region 4: x1 · Wlin[:128] + x2 · Wlin[128:] + blin -/

/-- The index maps over the grid: the row-tiled windows sit at tile t, the weight and bias windows at the origin. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

theorem lt4 (t : Fin cfg4.N) : t.val < 10 := by have h := t.isLt; have e : cfg4.N = 10 := N_4; omega

/-- Where an entry of tile t of each window sits in its array. -/
theorem emb4_0 (t : Fin cfg4.N) (p : Fin 5000) (k : Fin 128) :
    ((cfg4.win 0).blk t).view.emb (ix2 p k) = ix2 (rowOf t.val (lt4 t) p) k := by
  obtain ⟨e0, e1, -, -, -, -, -, -, -, -, -, -⟩ := idx4 t
  funext a; apply Fin.ext
  match a with
  | ⟨0, _⟩ => show win4_0.index t (0 : Fin 2) * 5000 + 1 * p.val = 5000 * t.val + p.val; omega
  | ⟨1, _⟩ => show win4_0.index t (1 : Fin 2) * 128 + 1 * k.val = k.val; omega
theorem emb4_1 (t : Fin cfg4.N) (p : Fin 5000) (k : Fin 128) :
    ((cfg4.win 1).blk t).view.emb (ix2 p k) = ix2 (rowOf t.val (lt4 t) p) k := by
  obtain ⟨-, -, e0, e1, -, -, -, -, -, -, -, -⟩ := idx4 t
  funext a; apply Fin.ext
  match a with
  | ⟨0, _⟩ => show win4_1.index t (0 : Fin 2) * 5000 + 1 * p.val = 5000 * t.val + p.val; omega
  | ⟨1, _⟩ => show win4_1.index t (1 : Fin 2) * 128 + 1 * k.val = k.val; omega
theorem emb4_2 (t : Fin cfg4.N) (k : Fin 128) (q : Fin 128) :
    ((cfg4.win 2).blk t).view.emb (ix2 k q) = ix2 k q := by
  obtain ⟨-, -, -, -, e0, e1, -, -, -, -, -, -⟩ := idx4 t
  funext a; apply Fin.ext
  match a with
  | ⟨0, _⟩ => show win4_2.index t (0 : Fin 2) * 128 + 1 * k.val = k.val; omega
  | ⟨1, _⟩ => show win4_2.index t (1 : Fin 2) * 128 + 1 * q.val = q.val; omega
theorem emb4_3 (t : Fin cfg4.N) (k : Fin 128) (q : Fin 128) :
    ((cfg4.win 3).blk t).view.emb (ix2 k q) = ix2 k q := by
  obtain ⟨-, -, -, -, -, -, e0, e1, -, -, -, -⟩ := idx4 t
  funext a; apply Fin.ext
  match a with
  | ⟨0, _⟩ => show win4_3.index t (0 : Fin 2) * 128 + 1 * k.val = k.val; omega
  | ⟨1, _⟩ => show win4_3.index t (1 : Fin 2) * 128 + 1 * q.val = q.val; omega
theorem emb4_4 (t : Fin cfg4.N) (k : Fin 1) (q : Fin 128) :
    ((cfg4.win 4).blk t).view.emb (ix2 k q) = ix2 k q := by
  obtain ⟨-, -, -, -, -, -, -, -, e0, e1, -, -⟩ := idx4 t
  funext a; apply Fin.ext
  match a with
  | ⟨0, _⟩ => show win4_4.index t (0 : Fin 2) * 1 + 1 * k.val = k.val; omega
  | ⟨1, _⟩ => show win4_4.index t (1 : Fin 2) * 128 + 1 * q.val = q.val; omega
theorem emb4_5 (t : Fin cfg4.N) (p : Fin 5000) (k : Fin 128) :
    ((cfg4.win 5).blk t).view.emb (ix2 p k) = ix2 (rowOf t.val (lt4 t) p) k := by
  obtain ⟨-, -, -, -, -, -, -, -, -, -, e0, e1⟩ := idx4 t
  funext a; apply Fin.ext
  match a with
  | ⟨0, _⟩ => show win4_5.index t (0 : Fin 2) * 5000 + 1 * p.val = 5000 * t.val + p.val; omega
  | ⟨1, _⟩ => show win4_5.index t (1 : Fin 2) * 128 + 1 * k.val = k.val; omega

/-- The five input blocks of tile t read at an entry: rows 5000·t … of x1 and of x2, the upper and the lower half of
    Wlin, the row blin. -/
theorem rd4_0 (c : Dev nD) (t : Fin cfg4.N) (p : Fin 5000) (k : Fin 128) :
    iblk4 V c 0 t (ix2 p k) = V c (Pipeline.arrRef spec4 0) (ix2 (rowOf t.val (lt4 t) p) k) := by
  show V c (Pipeline.arrRef spec4 0) (((cfg4.win 0).blk t).view.emb (ix2 p k)) = _
  rw [emb4_0]
theorem rd4_1 (c : Dev nD) (t : Fin cfg4.N) (p : Fin 5000) (k : Fin 128) :
    iblk4 V c 1 t (ix2 p k) = V c (Pipeline.arrRef spec4 1) (ix2 (rowOf t.val (lt4 t) p) k) := by
  show V c (Pipeline.arrRef spec4 1) (((cfg4.win 1).blk t).view.emb (ix2 p k)) = _
  rw [emb4_1]
theorem rd4_2 (c : Dev nD) (Wlin : FArr Ideal Cert.ReferenceIdeal.S256x128)
    (hs0 : Cert.ReferenceIdeal.S256x128.Slices ![0, 0] S128x128)
    (h2 : V c (Pipeline.arrRef spec4 2) = extractStridedSlice S128x128 ![0, 0] Wlin hs0) (t : Fin cfg4.N) (k q : Fin 128) :
    iblk4 V c 2 t (ix2 k q) = Wlin (ix2 (Cert.Gcn.lo k) q) := by
  show V c (Pipeline.arrRef spec4 2) (((cfg4.win 2).blk t).view.emb (ix2 k q)) = _
  rw [emb4_2, h2]
  exact extractStridedSlice_apply ![0, 0] Wlin hs0 (ix2 k q) (ix2 (Cert.Gcn.lo k) q) fun a =>
    match a with
    | ⟨0, _⟩ => (Nat.zero_add _).symm
    | ⟨1, _⟩ => (Nat.zero_add _).symm
theorem rd4_3 (c : Dev nD) (Wlin : FArr Ideal Cert.ReferenceIdeal.S256x128)
    (hs1 : Cert.ReferenceIdeal.S256x128.Slices ![128, 0] S128x128)
    (h3 : V c (Pipeline.arrRef spec4 3) = extractStridedSlice S128x128 ![128, 0] Wlin hs1) (t : Fin cfg4.N) (k q : Fin 128) :
    iblk4 V c 3 t (ix2 k q) = Wlin (ix2 (Cert.Gcn.hi k) q) := by
  show V c (Pipeline.arrRef spec4 3) (((cfg4.win 3).blk t).view.emb (ix2 k q)) = _
  rw [emb4_3, h3]
  exact extractStridedSlice_apply ![128, 0] Wlin hs1 (ix2 k q) (ix2 (Cert.Gcn.hi k) q) fun a =>
    match a with
    | ⟨0, _⟩ => rfl
    | ⟨1, _⟩ => (Nat.zero_add _).symm
theorem rd4_4 (c : Dev nD) (blin : FArr Ideal Cert.ReferenceIdeal.S128) (hsc : Cert.ReferenceIdeal.S128.ShapeCasts S1x128)
    (h4 : V c (Pipeline.arrRef spec4 4) = shapeCast S1x128 blin hsc) (t : Fin cfg4.N) (q : Fin 128) :
    iblk4 V c 4 t (ix2 (0 : Fin 1) q) = blin (ix1 q) := by
  show V c (Pipeline.arrRef spec4 4) (((cfg4.win 4).blk t).view.emb (ix2 (0 : Fin 1) q)) = _
  rw [emb4_4, h4]
  exact Cert.BiasRow.cast_row_apply hsc blin q

/-- What tile t writes back is tile t of [x1 | x2] · Wlin + blin, when the two [128, 128] arrays the region finds are the
    upper and lower halves of Wlin and the [1, 128] array is the row blin. -/
theorem flushed4 (c : Dev nD) (Wlin : FArr Ideal Cert.ReferenceIdeal.S256x128) (blin : FArr Ideal Cert.ReferenceIdeal.S128)
    (hs0 : Cert.ReferenceIdeal.S256x128.Slices ![0, 0] S128x128) (hs1 : Cert.ReferenceIdeal.S256x128.Slices ![128, 0] S128x128)
    (hsc : Cert.ReferenceIdeal.S128.ShapeCasts S1x128)
    (h2 : V c (Pipeline.arrRef spec4 2) = extractStridedSlice S128x128 ![0, 0] Wlin hs0)
    (h3 : V c (Pipeline.arrRef spec4 3) = extractStridedSlice S128x128 ![128, 0] Wlin hs1)
    (h4 : V c (Pipeline.arrRef spec4 4) = shapeCast S1x128 blin hsc) (t : Fin cfg4.N) :
    (dat4 V c).flushed 5 t = ((cfg4.win 5).blk t).view.read (Elt Ideal)
      (Cert.Gcn.outOf (F := Ideal) (V c (Pipeline.arrRef spec4 0)) (V c (Pipeline.arrRef spec4 1)) Wlin blin) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (iblk4 V c 2 t) (iblk4 V c 3 t) (iblk4 V c 4 t) (ix2 p q)
    = Cert.Gcn.outOf (F := Ideal) (V c (Pipeline.arrRef spec4 0)) (V c (Pipeline.arrRef spec4 1)) Wlin blin (((cfg4.win 5).blk t).view.emb (ix2 p q))
  rw [emb4_5]
  exact tile_out _ _ _ _ _ _ _ _ _ t.val (lt4 t) (rd4_0 V c t) (rd4_1 V c t) (rd4_2 V c Wlin hs0 h2 t) (rd4_3 V c Wlin hs1 h3 t)
    (rd4_4 V c blin hsc h4 t) p q

/-- An index is in tile t's block of the output iff each coordinate is in the block's range. -/
theorem mem_blk4 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v65).slice (win4_5.rect t)).set ↔ _
  rw [View.set_slice_whole, Rect.mem_set_unit]
  exact Iff.rfl

/-- Row r lies in tile r / 5000: the ten tiles cover the array. -/
theorem cover4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by omega⟩, rfl⟩
  obtain ⟨-, -, -, -, -, -, -, -, -, -, e0, e1⟩ := idx4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- After the region its output array is [x1 | x2] · Wlin + blin of the two arrays x1, x2 it found. -/
theorem region4_value (c : Dev nD) (Wlin : FArr Ideal Cert.ReferenceIdeal.S256x128) (blin : FArr Ideal Cert.ReferenceIdeal.S128)
    (hs0 : Cert.ReferenceIdeal.S256x128.Slices ![0, 0] S128x128) (hs1 : Cert.ReferenceIdeal.S256x128.Slices ![128, 0] S128x128)
    (hsc : Cert.ReferenceIdeal.S128.ShapeCasts S1x128)
    (h2 : V c (Pipeline.arrRef spec4 2) = extractStridedSlice S128x128 ![0, 0] Wlin hs0)
    (h3 : V c (Pipeline.arrRef spec4 3) = extractStridedSlice S128x128 ![128, 0] Wlin hs1)
    (h4 : V c (Pipeline.arrRef spec4 4) = shapeCast S1x128 blin hsc) :
    (dat4 V c).arrAt 5 cfg4.N
      = Cert.Gcn.outOf (F := Ideal) (V c (Pipeline.arrRef spec4 0)) (V c (Pipeline.arrRef spec4 1)) Wlin blin :=
  (dat4 V c).arrAt_eq_of_cover 5 _ (fun t _ => flushed4 V c Wlin blin hs0 hs1 hsc h2 h3 h4 t) cover4

end Cert.Gcn.Regions

end
-- ==== Proof.RegionsSib.lean ====
/-
  Regions 2 and 3 of the kernel program, each output array as one stage of the block of the arrays the region finds.

  Region 2 is the second product x1 · W2 and region 3 the second rectifier max (agg2 + b2, 0). They are read tile by
  tile exactly as regions 0 and 1: ten tiles of 5000 rows, at tile t the row-tiled windows read rows 5000·t … 5000·t + 4999
  and the whole-array window its whole array, so entry (p, q) of the output tile is the stage's entry (5000·t + p, q),
  and the ten tiles cover the 50000 rows.
-/
import proofs.«136363_j30777735643935_1_alg».proof.Proof.Regions

set_option maxRecDepth 16384

noncomputable section

open scoped BigOperators

namespace Cert.Gcn.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Region 2: x1 · W2 -/

/-- The index maps over the grid: the row-tiled windows sit at tile t, the weight window at the origin. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

theorem lt2 (t : Fin cfg2.N) : t.val < 10 := by have h := t.isLt; have e : cfg2.N = 10 := N_2; omega

/-- Where an entry of tile t of each window sits in its array. -/
theorem emb2_0 (t : Fin cfg2.N) (p : Fin 5000) (k : Fin 128) :
    ((cfg2.win 0).blk t).view.emb (ix2 p k) = ix2 (rowOf t.val (lt2 t) p) k := by
  obtain ⟨e0, e1, -, -, -, -⟩ := idx2 t
  funext a; apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega
theorem emb2_1 (t : Fin cfg2.N) (k : Fin 128) (q : Fin 128) :
    ((cfg2.win 1).blk t).view.emb (ix2 k q) = ix2 k q := by
  obtain ⟨-, -, e0, e1, -, -⟩ := idx2 t
  funext a; apply Fin.ext
  match a with
  | ⟨0, _⟩ => show win2_1.index t (0 : Fin 2) * 128 + 1 * k.val = k.val; omega
  | ⟨1, _⟩ => show win2_1.index t (1 : Fin 2) * 128 + 1 * q.val = q.val; omega
theorem emb2_2 (t : Fin cfg2.N) (p : Fin 5000) (k : Fin 128) :
    ((cfg2.win 2).blk t).view.emb (ix2 p k) = ix2 (rowOf t.val (lt2 t) p) k := by
  obtain ⟨-, -, -, -, e0, e1⟩ := idx2 t
  funext a; apply Fin.ext
  match a with
  | ⟨0, _⟩ => show win2_2.index t (0 : Fin 2) * 5000 + 1 * p.val = 5000 * t.val + p.val; omega
  | ⟨1, _⟩ => show win2_2.index t (1 : Fin 2) * 128 + 1 * k.val = k.val; omega

/-- What tile t writes back is tile t of the product of the two arrays the region finds. -/
theorem flushed2 (c : Dev nD) (t : Fin cfg2.N) :
    (dat2 V c).flushed 2 t = ((cfg2.win 2).blk t).view.read (Elt Ideal)
      (Cert.Gcn.dense (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = Cert.Gcn.dense (F := Ideal) (V c (Pipeline.arrRef spec2 0)) (V c (Pipeline.arrRef spec2 1)) (((cfg2.win 2).blk t).view.emb (ix2 p q))
  rw [emb2_2]
  refine tile_dense k2_pay1 Tile.pay2_apply _ _ _ _ t.val (lt2 t) (fun p k => ?_) (fun k q => ?_) p q
  · show V c (Pipeline.arrRef spec2 0) (((cfg2.win 0).blk t).view.emb (ix2 p k)) = _
    rw [emb2_0]
  · show V c (Pipeline.arrRef spec2 1) (((cfg2.win 1).blk t).view.emb (ix2 k q)) = _
    rw [emb2_1]

/-- An index is in tile t's block of the output iff each coordinate is in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row r lies in tile r / 5000: the ten tiles cover the array. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, e0, e1⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its output array is the product of the two arrays it found. -/
theorem region2_value (c : Dev nD) :
    (dat2 V c).arrAt 2 cfg2.N
      = Cert.Gcn.dense (F := Ideal) (V c (Pipeline.arrRef spec2 0)) (V c (Pipeline.arrRef spec2 1)) :=
  (dat2 V c).arrAt_eq_of_cover 2 _ (fun t _ => flushed2 V c t) cover2

/-! ## Region 3: max (agg2 + b2, 0) -/

/-- The index maps over the grid: the row-tiled windows sit at tile t, the bias window at the origin. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

theorem lt3 (t : Fin cfg3.N) : t.val < 10 := by have h := t.isLt; have e : cfg3.N = 10 := N_3; omega

/-- Where an entry of tile t of each window sits in its array. -/
theorem emb3_0 (t : Fin cfg3.N) (p : Fin 5000) (k : Fin 128) :
    ((cfg3.win 0).blk t).view.emb (ix2 p k) = ix2 (rowOf t.val (lt3 t) p) k := by
  obtain ⟨e0, e1, -, -, -, -⟩ := idx3 t
  funext a; apply Fin.ext
  match a with
  | ⟨0, _⟩ => show win3_0.index t (0 : Fin 2) * 5000 + 1 * p.val = 5000 * t.val + p.val; omega
  | ⟨1, _⟩ => show win3_0.index t (1 : Fin 2) * 128 + 1 * k.val = k.val; omega
theorem emb3_1 (t : Fin cfg3.N) (k : Fin 1) (q : Fin 128) :
    ((cfg3.win 1).blk t).view.emb (ix2 k q) = ix2 k q := by
  obtain ⟨-, -, e0, e1, -, -⟩ := idx3 t
  funext a; apply Fin.ext
  match a with
  | ⟨0, _⟩ => show win3_1.index t (0 : Fin 2) * 1 + 1 * k.val = k.val; omega
  | ⟨1, _⟩ => show win3_1.index t (1 : Fin 2) * 128 + 1 * q.val = q.val; omega
theorem emb3_2 (t : Fin cfg3.N) (p : Fin 5000) (k : Fin 128) :
    ((cfg3.win 2).blk t).view.emb (ix2 p k) = ix2 (rowOf t.val (lt3 t) p) k := by
  obtain ⟨-, -, -, -, e0, e1⟩ := idx3 t
  funext a; apply Fin.ext
  match a with
  | ⟨0, _⟩ => show win3_2.index t (0 : Fin 2) * 5000 + 1 * p.val = 5000 * t.val + p.val; omega
  | ⟨1, _⟩ => show win3_2.index t (1 : Fin 2) * 128 + 1 * k.val = k.val; omega

/-- What tile t writes back is tile t of max (a + b, 0), when the [1, 128] array the region finds is the row b. -/
theorem flushed3 (c : Dev nD) (b : FArr Ideal Cert.ReferenceIdeal.S128) (hsc : Cert.ReferenceIdeal.S128.ShapeCasts S1x128)
    (hb : V c (Pipeline.arrRef spec3 1) = shapeCast S1x128 b hsc) (t : Fin cfg3.N) :
    (dat3 V c).flushed 2 t = ((cfg3.win 2).blk t).view.read (Elt Ideal)
      (Cert.Gcn.biasRelu (F := Ideal) (V c (Pipeline.arrRef spec3 0)) b) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q)
    = Cert.Gcn.biasRelu (F := Ideal) (V c (Pipeline.arrRef spec3 0)) b (((cfg3.win 2).blk t).view.emb (ix2 p q))
  rw [emb3_2]
  refine tile_biasRelu k3_pay1 Tile.pay3_apply _ _ _ _ t.val (lt3 t) (fun p q => ?_) (fun q => ?_) p q
  · show V c (Pipeline.arrRef spec3 0) (((cfg3.win 0).blk t).view.emb (ix2 p q)) = _
    rw [emb3_0]
  · show V c (Pipeline.arrRef spec3 1) (((cfg3.win 1).blk t).view.emb (ix2 (0 : Fin 1) q)) = _
    rw [emb3_1, hb]
    exact Cert.BiasRow.cast_row_apply hsc b q

/-- An index is in tile t's block of the output iff each coordinate is in the block's range. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row r lies in tile r / 5000: the ten tiles cover the array. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, e0, e1⟩ := idx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its output array is max (a + b, 0) of the array a it found and the row b. -/
theorem region3_value (c : Dev nD) (b : FArr Ideal Cert.ReferenceIdeal.S128) (hsc : Cert.ReferenceIdeal.S128.ShapeCasts S1x128)
    (hb : V c (Pipeline.arrRef spec3 1) = shapeCast S1x128 b hsc) :
    (dat3 V c).arrAt 2 cfg3.N = Cert.Gcn.biasRelu (F := Ideal) (V c (Pipeline.arrRef spec3 0)) b :=
  (dat3 V c).arrAt_eq_of_cover 2 _ (fun t _ => flushed3 V c b hsc hb t) cover3

end Cert.Gcn.Regions

end
-- ==== Proof.Walk.lean ====
/-
  The walk through the kernel program's segment boundaries: what each buffer the later segments read holds at each
  boundary, named by the block's stages of the argument arrays, down to the result buffer after the last region.
-/
import proofs.«136363_j30777735643935_1_alg».proof.Proof.Bounds
import proofs.«136363_j30777735643935_1_alg».proof.Proof.Regions
import proofs.«136363_j30777735643935_1_alg».proof.Proof.RegionsSib

set_option maxRecDepth 16384

noncomputable section

namespace Cert.Gcn.Walk

open Cert.KernelIdeal Cert.KernelIdeal.Gen Idealize.ShloMosaic Idealize.ShloMosaic.TcCoe Idealize.ShloMosaic.StableHlo
open Idealize.SL.Sem Cert.Gcn.Bounds Cert.Gcn.Regions

variable (m : (ℓ : Loc nD τ sig) → Buf (Elt Ideal) ℓ) (ρ : Dev nD → PrngReg)

/-! ## The argument arrays and the stages of them the program computes -/

abbrev xA (c : Dev nD) : FArr Ideal Cert.ReferenceIdeal.S50000x128 := m ((c : Thread nD τ).loc main_arg0)
abbrev eA (c : Dev nD) : IArr Ideal Cert.ReferenceIdeal.S2x640000 := m ((c : Thread nD τ).loc main_arg1)
abbrev w1A (c : Dev nD) : FArr Ideal Cert.ReferenceIdeal.S128x128 := m ((c : Thread nD τ).loc main_arg2)
abbrev b1A (c : Dev nD) : FArr Ideal Cert.ReferenceIdeal.S128 := m ((c : Thread nD τ).loc main_arg3)
abbrev w2A (c : Dev nD) : FArr Ideal Cert.ReferenceIdeal.S128x128 := m ((c : Thread nD τ).loc main_arg4)
abbrev b2A (c : Dev nD) : FArr Ideal Cert.ReferenceIdeal.S128 := m ((c : Thread nD τ).loc main_arg5)
abbrev wlA (c : Dev nD) : FArr Ideal Cert.ReferenceIdeal.S256x128 := m ((c : Thread nD τ).loc main_arg6)
abbrev blA (c : Dev nD) : FArr Ideal Cert.ReferenceIdeal.S128 := m ((c : Thread nD τ).loc main_arg7)

/-- The id vectors, the weights, and the two layers' outputs. -/
def sV (c : Dev nD) : IArr Ideal Cert.ReferenceIdeal.S690000 := srcIds (eA m c)
def dV (c : Dev nD) : IArr Ideal Cert.ReferenceIdeal.S690000 := dstIds (eA m c)
def nV (c : Dev nD) : FArr Ideal Cert.ReferenceIdeal.S690000 := normOf (srcIds (eA m c)) (dstIds (eA m c))
def x1V (c : Dev nD) : FArr Ideal Cert.ReferenceIdeal.S50000x128 :=
  biasRelu (aggOf (sV m c) (dV m c) (nV m c) (dense (xA m c) (w1A m c))) (b1A m c)
def x2V (c : Dev nD) : FArr Ideal Cert.ReferenceIdeal.S50000x128 :=
  biasRelu (aggOf (sV m c) (dV m c) (nV m c) (dense (x1V m c) (w2A m c))) (b2A m c)

variable (c : Dev nD)

/-! ## Region 0's entry -/

theorem W3_v3 : W3 m ρ c (Proc.devRef .tc main_v3) = sV m c := pre_v3 (W0 m ρ c)
theorem W3_v6 : W3 m ρ c (Proc.devRef .tc main_v6) = dV m c := pre_v6 (W0 m ρ c)
theorem W3_v29 : W3 m ρ c (Proc.devRef .tc main_v29) = nV m c := pre_v29 (W0 m ρ c)
theorem W3_arg0 : W3 m ρ c (Proc.devRef .tc main_arg0) = xA m c := pre_arg0 (W0 m ρ c)
theorem W3_arg2 : W3 m ρ c (Proc.devRef .tc main_arg2) = w1A m c := pre_arg2 (W0 m ρ c)
theorem W3_arg3 : W3 m ρ c (Proc.devRef .tc main_arg3) = b1A m c := pre_arg3 (W0 m ρ c)
theorem W3_arg4 : W3 m ρ c (Proc.devRef .tc main_arg4) = w2A m c := pre_arg4 (W0 m ρ c)
theorem W3_arg5 : W3 m ρ c (Proc.devRef .tc main_arg5) = b2A m c := pre_arg5 (W0 m ρ c)
theorem W3_arg6 : W3 m ρ c (Proc.devRef .tc main_arg6) = wlA m c := pre_arg6 (W0 m ρ c)
theorem W3_arg7 : W3 m ρ c (Proc.devRef .tc main_arg7) = blA m c := pre_arg7 (W0 m ρ c)

/-! ## Region 0's exit: the product x · W1 -/

theorem W4_v30 : W4 m ρ c (Proc.devRef .tc main_v30) = dense (xA m c) (w1A m c) :=
  (W4_arr m ρ c 2).trans ((region0_value (V3 m ρ) c).trans (by
    show dense (W3 m ρ c (Proc.devRef .tc main_arg0)) (W3 m ρ c (Proc.devRef .tc main_arg2)) = _
    rw [W3_arg0, W3_arg2]))
theorem W4_v3 : W4 m ρ c (Proc.devRef .tc main_v3) = sV m c := (W4_of_ne m ρ c main_v3 (by decide)).trans (W3_v3 m ρ c)
theorem W4_v6 : W4 m ρ c (Proc.devRef .tc main_v6) = dV m c := (W4_of_ne m ρ c main_v6 (by decide)).trans (W3_v6 m ρ c)
theorem W4_v29 : W4 m ρ c (Proc.devRef .tc main_v29) = nV m c := (W4_of_ne m ρ c main_v29 (by decide)).trans (W3_v29 m ρ c)
theorem W4_arg3 : W4 m ρ c (Proc.devRef .tc main_arg3) = b1A m c := (W4_of_ne m ρ c main_arg3 (by decide)).trans (W3_arg3 m ρ c)
theorem W4_arg4 : W4 m ρ c (Proc.devRef .tc main_arg4) = w2A m c := (W4_of_ne m ρ c main_arg4 (by decide)).trans (W3_arg4 m ρ c)
theorem W4_arg5 : W4 m ρ c (Proc.devRef .tc main_arg5) = b2A m c := (W4_of_ne m ρ c main_arg5 (by decide)).trans (W3_arg5 m ρ c)
theorem W4_arg6 : W4 m ρ c (Proc.devRef .tc main_arg6) = wlA m c := (W4_of_ne m ρ c main_arg6 (by decide)).trans (W3_arg6 m ρ c)
theorem W4_arg7 : W4 m ρ c (Proc.devRef .tc main_arg7) = blA m c := (W4_of_ne m ρ c main_arg7 (by decide)).trans (W3_arg7 m ρ c)

/-! ## Region 1's entry: the aggregated product, and b1 as a row -/

theorem W5_v43 : W5 m ρ c (Proc.devRef .tc main_v43) = aggOf (sV m c) (dV m c) (nV m c) (dense (xA m c) (w1A m c)) :=
  (s1_v43 (W4 m ρ c)).trans (by rw [W4_v3, W4_v6, W4_v29, W4_v30])
theorem W5_v44 : W5 m ρ c (Proc.devRef .tc main_v44) = shapeCast S1x128 (b1A m c) shapeCasts_S128_S1x128 :=
  (s1_v44 (W4 m ρ c)).trans (by rw [W4_arg3])
theorem W5_v3 : W5 m ρ c (Proc.devRef .tc main_v3) = sV m c := (s1_keep (W4 m ρ c) main_v3 (by simp)).trans (W4_v3 m ρ c)
theorem W5_v6 : W5 m ρ c (Proc.devRef .tc main_v6) = dV m c := (s1_keep (W4 m ρ c) main_v6 (by simp)).trans (W4_v6 m ρ c)
theorem W5_v29 : W5 m ρ c (Proc.devRef .tc main_v29) = nV m c := (s1_keep (W4 m ρ c) main_v29 (by simp)).trans (W4_v29 m ρ c)
theorem W5_arg4 : W5 m ρ c (Proc.devRef .tc main_arg4) = w2A m c := (s1_keep (W4 m ρ c) main_arg4 (by simp)).trans (W4_arg4 m ρ c)
theorem W5_arg5 : W5 m ρ c (Proc.devRef .tc main_arg5) = b2A m c := (s1_keep (W4 m ρ c) main_arg5 (by simp)).trans (W4_arg5 m ρ c)
theorem W5_arg6 : W5 m ρ c (Proc.devRef .tc main_arg6) = wlA m c := (s1_keep (W4 m ρ c) main_arg6 (by simp)).trans (W4_arg6 m ρ c)
theorem W5_arg7 : W5 m ρ c (Proc.devRef .tc main_arg7) = blA m c := (s1_keep (W4 m ρ c) main_arg7 (by simp)).trans (W4_arg7 m ρ c)

/-! ## Region 1's exit: x1 -/

theorem W6_v45 : W6 m ρ c (Proc.devRef .tc main_v45) = x1V m c :=
  (W6_arr m ρ c 2).trans ((region1_value (V5 m ρ) c (b1A m c) shapeCasts_S128_S1x128 (W5_v44 m ρ c)).trans (by
    show biasRelu (W5 m ρ c (Proc.devRef .tc main_v43)) (b1A m c) = _
    rw [W5_v43]; rfl))
theorem W6_v3 : W6 m ρ c (Proc.devRef .tc main_v3) = sV m c := (W6_of_ne m ρ c main_v3 (by decide)).trans (W5_v3 m ρ c)
theorem W6_v6 : W6 m ρ c (Proc.devRef .tc main_v6) = dV m c := (W6_of_ne m ρ c main_v6 (by decide)).trans (W5_v6 m ρ c)
theorem W6_v29 : W6 m ρ c (Proc.devRef .tc main_v29) = nV m c := (W6_of_ne m ρ c main_v29 (by decide)).trans (W5_v29 m ρ c)
theorem W6_arg4 : W6 m ρ c (Proc.devRef .tc main_arg4) = w2A m c := (W6_of_ne m ρ c main_arg4 (by decide)).trans (W5_arg4 m ρ c)
theorem W6_arg5 : W6 m ρ c (Proc.devRef .tc main_arg5) = b2A m c := (W6_of_ne m ρ c main_arg5 (by decide)).trans (W5_arg5 m ρ c)
theorem W6_arg6 : W6 m ρ c (Proc.devRef .tc main_arg6) = wlA m c := (W6_of_ne m ρ c main_arg6 (by decide)).trans (W5_arg6 m ρ c)
theorem W6_arg7 : W6 m ρ c (Proc.devRef .tc main_arg7) = blA m c := (W6_of_ne m ρ c main_arg7 (by decide)).trans (W5_arg7 m ρ c)

/-! ## Region 2's exit: the product x1 · W2 (x1 read through an input window, kept) -/

theorem W7_v46 : W7 m ρ c (Proc.devRef .tc main_v46) = dense (x1V m c) (w2A m c) :=
  (W7_arr m ρ c 2).trans ((region2_value (V6 m ρ) c).trans (by
    show dense (W6 m ρ c (Proc.devRef .tc main_v45)) (W6 m ρ c (Proc.devRef .tc main_arg4)) = _
    rw [W6_v45, W6_arg4]))
theorem W7_v45 : W7 m ρ c (Proc.devRef .tc main_v45) = x1V m c :=
  ((W7_arr m ρ c 0).trans (((dat2 (V6 m ρ) c).arrAt_in 0 rfl _).trans (A_eq2 (V6 m ρ) c 0))).trans (W6_v45 m ρ c)
theorem W7_v3 : W7 m ρ c (Proc.devRef .tc main_v3) = sV m c := (W7_of_ne m ρ c main_v3 (by decide)).trans (W6_v3 m ρ c)
theorem W7_v6 : W7 m ρ c (Proc.devRef .tc main_v6) = dV m c := (W7_of_ne m ρ c main_v6 (by decide)).trans (W6_v6 m ρ c)
theorem W7_v29 : W7 m ρ c (Proc.devRef .tc main_v29) = nV m c := (W7_of_ne m ρ c main_v29 (by decide)).trans (W6_v29 m ρ c)
theorem W7_arg5 : W7 m ρ c (Proc.devRef .tc main_arg5) = b2A m c := (W7_of_ne m ρ c main_arg5 (by decide)).trans (W6_arg5 m ρ c)
theorem W7_arg6 : W7 m ρ c (Proc.devRef .tc main_arg6) = wlA m c := (W7_of_ne m ρ c main_arg6 (by decide)).trans (W6_arg6 m ρ c)
theorem W7_arg7 : W7 m ρ c (Proc.devRef .tc main_arg7) = blA m c := (W7_of_ne m ρ c main_arg7 (by decide)).trans (W6_arg7 m ρ c)

/-! ## Region 3's entry: the second aggregation, and b2 as a row -/

theorem W8_v59 : W8 m ρ c (Proc.devRef .tc main_v59) = aggOf (sV m c) (dV m c) (nV m c) (dense (x1V m c) (w2A m c)) :=
  (s3_v59 (W7 m ρ c)).trans (by rw [W7_v3, W7_v6, W7_v29, W7_v46])
theorem W8_v60 : W8 m ρ c (Proc.devRef .tc main_v60) = shapeCast S1x128 (b2A m c) shapeCasts_S128_S1x128 :=
  (s3_v60 (W7 m ρ c)).trans (by rw [W7_arg5])
theorem W8_v45 : W8 m ρ c (Proc.devRef .tc main_v45) = x1V m c := (s3_keep (W7 m ρ c) main_v45 (by simp)).trans (W7_v45 m ρ c)
theorem W8_arg6 : W8 m ρ c (Proc.devRef .tc main_arg6) = wlA m c := (s3_keep (W7 m ρ c) main_arg6 (by simp)).trans (W7_arg6 m ρ c)
theorem W8_arg7 : W8 m ρ c (Proc.devRef .tc main_arg7) = blA m c := (s3_keep (W7 m ρ c) main_arg7 (by simp)).trans (W7_arg7 m ρ c)

/-! ## Region 3's exit: x2 -/

theorem W9_v61 : W9 m ρ c (Proc.devRef .tc main_v61) = x2V m c :=
  (W9_arr m ρ c 2).trans ((region3_value (V8 m ρ) c (b2A m c) shapeCasts_S128_S1x128 (W8_v60 m ρ c)).trans (by
    show biasRelu (W8 m ρ c (Proc.devRef .tc main_v59)) (b2A m c) = _
    rw [W8_v59]; rfl))
theorem W9_v45 : W9 m ρ c (Proc.devRef .tc main_v45) = x1V m c := (W9_of_ne m ρ c main_v45 (by decide)).trans (W8_v45 m ρ c)
theorem W9_arg6 : W9 m ρ c (Proc.devRef .tc main_arg6) = wlA m c := (W9_of_ne m ρ c main_arg6 (by decide)).trans (W8_arg6 m ρ c)
theorem W9_arg7 : W9 m ρ c (Proc.devRef .tc main_arg7) = blA m c := (W9_of_ne m ρ c main_arg7 (by decide)).trans (W8_arg7 m ρ c)

/-! ## Region 4's entry: the halves of Wlin, blin as a row -/

theorem W10_v62 : W10 m ρ c (Proc.devRef .tc main_v62)
    = extractStridedSlice S128x128 ![0, 0] (wlA m c) slices_S256x128_S128x128_0_0 :=
  (s4_v62 (W9 m ρ c)).trans (by rw [W9_arg6])
theorem W10_v63 : W10 m ρ c (Proc.devRef .tc main_v63)
    = extractStridedSlice S128x128 ![128, 0] (wlA m c) slices_S256x128_S128x128_128_0 :=
  (s4_v63 (W9 m ρ c)).trans (by rw [W9_arg6])
theorem W10_v64 : W10 m ρ c (Proc.devRef .tc main_v64) = shapeCast S1x128 (blA m c) shapeCasts_S128_S1x128 :=
  (s4_v64 (W9 m ρ c)).trans (by rw [W9_arg7])
theorem W10_v45 : W10 m ρ c (Proc.devRef .tc main_v45) = x1V m c := (s4_keep (W9 m ρ c) main_v45 (by simp)).trans (W9_v45 m ρ c)
theorem W10_v61 : W10 m ρ c (Proc.devRef .tc main_v61) = x2V m c := (s4_keep (W9 m ρ c) main_v61 (by simp)).trans (W9_v61 m ρ c)

/-! ## Region 4's exit: the result -/

theorem W11_v65 : W11 m ρ c (Proc.devRef .tc main_v65) = outOf (x1V m c) (x2V m c) (wlA m c) (blA m c) :=
  (W11_arr m ρ c 5).trans ((region4_value (V10 m ρ) c (wlA m c) (blA m c) slices_S256x128_S128x128_0_0
      slices_S256x128_S128x128_128_0 shapeCasts_S128_S1x128 (W10_v62 m ρ c) (W10_v63 m ρ c) (W10_v64 m ρ c)).trans (by
    show outOf (W10 m ρ c (Proc.devRef .tc main_v45)) (W10 m ρ c (Proc.devRef .tc main_v61)) (wlA m c) (blA m c) = _
    rw [W10_v45, W10_v61]))

/-- The result buffer after the run holds the block of the argument arrays. -/
theorem result : W11 m ρ c (Proc.devRef .tc main_v65)
    = gcn (xA m c) (eA m c) (w1A m c) (b1A m c) (w2A m c) (b2A m c) (wlA m c) (blA m c) :=
  (W11_v65 m ρ c).trans rfl

end Cert.Gcn.Walk

end
-- ==== Proof.RefValue.lean ====
/-
  The reference program's composed result is the block `gcn` of its eight argument arrays: the reference computes the
  id vectors, the weights and each aggregation with exactly the stages' host operations (the weights twice, once per
  layer, from the same edge list), so the two terms are one term once the stages' names are opened.
-/
import proofs.«136363_j30777735643935_1_alg».proof.Proof.RefRun
import proofs.«136363_j30777735643935_1_alg».proof.Proof.Shared

set_option maxRecDepth 16384

noncomputable section

namespace Cert.Gcn

open Cert.ReferenceIdeal Cert.ReferenceIdeal.Gen Idealize.ShloMosaic Idealize.ShloMosaic.TcCoe Idealize.SL.Sem

variable {F : FTy → Type} [FloatOps F]

theorem ref_result (m : (ℓ : Loc nD τ sig) → Buf (Elt F) ℓ) (c : Dev nD) :
    Cert.ReferenceIdeal.RunP.res_main_v100 (F := F) m c
      = gcn (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.RunP.res_main_v100 gcn layer outOf biasRelu aggOf dense normOf dinvOf degOf wrapCol srcIds dstIds
  rfl

end Cert.Gcn

end
-- ==== Proof.lean ====
/- The claim: a two-layer graph-convolution block — x1 = relu (Â (x · W1) + b1), x2 = relu (Â (x1 · W2) + b2),
   out = [x1 | x2] · Wlin + blin, with Â the edge list's symmetric-normalised adjacency with self-loops, applied as
   gather · weight · scatter-add — computed by a program of five tiled kernel regions among host operations, agrees over
   the extended reals with the plain host program.

   Both programs compute the id vectors, the weights and each aggregation with the same host operations; the three
   kinds of region (a product of a 5000-row tile with a 128 × 128 matrix; a bias row added and the maximum with zero; two
   products summed plus a bias row) are, tile by tile, the rows of the host's product, rectifier and joined product —
   the last because a sum over the 256 columns of [x1 | x2] splits at column 128 into the two arrays' own sums. So both
   results are the one function `Cert.Gcn.gcn` of the eight argument arrays: the kernel program's by walking its
   segment boundaries (Walk), the reference's by opening its composed term (RefValue).
   The frames of the two kernel programs are the generated ones; the reference's frame is its run with the result
   dropped; the idealization's ledger is empty. -/
import proofs.«136363_j30777735643935_1_alg».proof.Defs
import proofs.«136363_j30777735643935_1_alg».proof.Proof.Gen.Kernel
import proofs.«136363_j30777735643935_1_alg».proof.Proof.Gen.Kernel.Skeleton
import proofs.«136363_j30777735643935_1_alg».proof.Proof.Gen.Kernel.Launch
import proofs.«136363_j30777735643935_1_alg».proof.Proof.Gen.Kernel.Points
import proofs.«136363_j30777735643935_1_alg».proof.Proof.Gen.Kernel.Frame
import proofs.«136363_j30777735643935_1_alg».proof.Proof.Gen.KernelIdeal
import proofs.«136363_j30777735643935_1_alg».proof.Proof.Gen.KernelIdeal.Skeleton
import proofs.«136363_j30777735643935_1_alg».proof.Proof.Gen.KernelIdeal.Launch
import proofs.«136363_j30777735643935_1_alg».proof.Proof.Gen.KernelIdeal.Points
import proofs.«136363_j30777735643935_1_alg».proof.Proof.Gen.KernelIdeal.Frame
import proofs.«136363_j30777735643935_1_alg».proof.Proof.Gen.ReferenceIdeal
import proofs.«136363_j30777735643935_1_alg».proof.Proof.Gen.Pre_finite_inputs
import proofs.«136363_j30777735643935_1_alg».proof.Proof.KRun
import proofs.«136363_j30777735643935_1_alg».proof.Proof.Walk
import proofs.«136363_j30777735643935_1_alg».proof.Proof.RefRun
import proofs.«136363_j30777735643935_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result forgotten. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with the block `gcn` of the argument arrays in their result buffers. -/
theorem algebraic : Cert.algebraic_KernelIdeal_ReferenceIdeal := by
  intro m ρ m' ρ' _ hagree
  refine ⟨fun c => Cert.Gcn.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Gcn.Walk.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RunP.run (F := Ideal) m' ρ')
    rw [Cert.Gcn.ref_result, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
